-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S2048x2048 : Shape := ⟨2, ![2048, 2048]⟩
abbrev S2048 : Shape := ⟨1, ![2048]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2x4096x2048 .f32) (main_arg1 : FVec F S2048x2048 .f32) (main_arg2 : FVec F S2048 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S2x4096x2048 : Shape := ⟨3, ![2, 4096, 2048]⟩
abbrev S2048x2048 : Shape := ⟨2, ![2048, 2048]⟩
abbrev S2048 : Shape := ⟨1, ![2048]⟩
abbrev S_ : Shape := ⟨0, ![]⟩
abbrev S1x1 : Shape := ⟨2, ![1, 1]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 28
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | .hbm, ⟨23, _⟩ => ⟨S1x1, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S2x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S1x1, .f32⟩
  | .local _ .vmem, ⟨5, _⟩ => ⟨S512x2048, .f32⟩
  | .local _ .vmem, ⟨6, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  transposes_S2048x2048_S2048x2048_1_0 : S2048x2048.Transposes [1, 0] S2048x2048
  bitsLt_bf16_f32 : FTy.bits .bf16 < FTy.bits .f32
  shapeCasts_S_S1x1 : S_.ShapeCasts S1x1
  shapeCasts_S2048_S1x2048 : S2048.ShapeCasts S1x2048
  shapeCasts_S2x4096x2048_S8192x2048 : S2x4096x2048.ShapeCasts S8192x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x2048 : S1x1.Broadcasts S512x2048
  shapeCasts_S8192x2048_S2x4096x2048 : S8192x2048.ShapeCasts S2x4096x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v12) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x4096x2048 : Shape := ⟨3, ![2, 4096, 2048]⟩
abbrev S2048x2048 : Shape := ⟨2, ![2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2048, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2048x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2x4096x2048, .f32⟩
  | .hbm, ⟨38, _⟩ => ⟨S2x4096x2048, .f32⟩
  | .hbm, ⟨39, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_cst_6 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]

class Facts₀ : Prop where
  reducesTo_S2x4096x2048_S2x4096_d2 : S2x4096x2048.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x2048_0_1_2 : S2x4096x1.BroadcastsInDim S2x4096x2048 (![0, 1, 2] : Fin 3 → Fin S2x4096x2048.rank)
  bcast_S2048_S1x1x2048_2 : S2048.BroadcastsInDim S1x1x2048 (![2] : Fin 1 → Fin S1x1x2048.rank)
  bcast_S1x1x2048_S2x4096x2048_0_1_2 : S1x1x2048.BroadcastsInDim S2x4096x2048 (![0, 1, 2] : Fin 3 → Fin S2x4096x2048.rank)
  reducesTo_S2048x2048_S_d0_1 : S2048x2048.ReducesTo [0, 1] S_
  bcast_S_S2048x2048 : S_.BroadcastsInDim S2048x2048 (![] : Fin 0 → Fin S2048x2048.rank)
  bcast_S_S2x4096x2048 : S_.BroadcastsInDim S2x4096x2048 (![] : Fin 0 → Fin S2x4096x2048.rank)
  dot_S2x4096x2048_S2048x2048_S2x4096x2048_2_1_01_0_n_n_wf : DotDims.WF S2x4096x2048 S2048x2048 S2x4096x2048 [2] [1] [0, 1] [0] [] []

variable [Facts₀]

def dot_S2x4096x2048_S2048x2048_S2x4096x2048_2_1_01_0_n_n : DotDims S2x4096x2048 S2048x2048 S2x4096x2048 where
  lhsContracting := [2]
  rhsContracting := [1]
  lhsNonContracting := [0, 1]
  rhsNonContracting := [0]
  lhsBatch := []
  rhsBatch := []
  wf := dot_S2x4096x2048_S2048x2048_S2x4096x2048_2_1_01_0_n_n_wf

class Facts : Prop extends Facts₀ where

variable [Facts]
-- ==== Proof.Quant.lean ====
/-
  The weights' side of a BitLinear layer, which both programs compute with the same host operations: the absmean
  scale `γ = (Σ |w|) / 2²²` of the 2048 × 2048 weight matrix, and the ternary weights `clip(round(w / (γ + 10⁻⁸)), −1, 1)`.
  Each is ONE function of the weight matrix. Nothing in this certificate opens them: the kernel's program and the
  reference apply the same operations to the same argument, so the two programs meet at these names.
-/
import Idealize.ShloMosaic.PureOps.Ideal

noncomputable section

namespace Cert.BitLinear

open Idealize.ShloMosaic

/-- The weight matrix's shape, and the scalar shape. -/
abbrev WShape : Shape := ⟨2, ![2048, 2048]⟩
abbrev Scalar0 : Shape := ⟨0, ![]⟩

theorem sumAll : WShape.ReducesTo [0, 1] Scalar0 := by decide
theorem scalarPos : 0 < Scalar0.numel := by decide
theorem splat : Scalar0.BroadcastsInDim WShape (![] : Fin 0 → Fin WShape.rank) := by decide

/-- The absmean scale: the sum of the absolute values over the count `2²²` (the word `0x4A800000`). -/
def scale (w : FVec Ideal WShape .f32) : FVec Ideal Scalar0 .f32 :=
  Host.divf (Host.reduceAdd (Host.absf w) (constant (F := Ideal) Scalar0 .f32 0x00000000#32) sumAll scalarPos)
    (constant (F := Ideal) Scalar0 .f32 0x4A800000#32)

/-- The ternary weights: `w / (γ + 10⁻⁸)` rounded to nearest even, clipped below at `−1` and above at `1`. -/
def ternary (w : FVec Ideal WShape .f32) : FVec Ideal WShape .f32 :=
  minimumf (broadcastInDim WShape ![] splat (id (constant (F := Ideal) Scalar0 .f32 0x3F800000#32)))
    (maximumf (broadcastInDim WShape ![] splat (id (constant (F := Ideal) Scalar0 .f32 0xBF800000#32)))
      (Host.roundeven (Host.divf w (broadcastInDim WShape ![] splat
        (addf (scale w) (constant (F := Ideal) Scalar0 .f32 0x322BCC77#32))))))

end Cert.BitLinear

end
-- ==== Proof.LibRowLayout.lean ====
/-
  Layout operations of matrices with a unit axis, and of a stack of matrices flattened to one matrix, read at an
  index given by its coordinates. Each lemma says which ONE element of the operand the result's element is:

  * a vector `[a]` viewed as a column `[a, 1]` (what a row reduction with `keepdims` produces);
  * a column `[a, 1]` broadcast along its rows to `[a, b]`;
  * a `[1, 1]` matrix broadcast to `[a, b]`;
  * a scalar viewed as a `[1, 1]` matrix;
  * a stack `[a, b, c]` viewed as the matrix `[a·b, c]` of its rows, and back: row `r` of the matrix is row `r mod b`
    of matrix `r / b` of the stack, and row `j` of matrix `i` is row `i·b + j`.
-/
import Idealize.ShloMosaic.Lib.ValueIdx
import Idealize.ShloMosaic.Lib.Pipeline.Value

noncomputable section

namespace Cert.RowLayout

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one element everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A scalar cast to a `[1, 1]` matrix reads the scalar. -/
theorem shapeCast_scalar_11_apply (x : (⟨0, ![]⟩ : Shape).Idx → α) (h : (⟨0, ![]⟩ : Shape).ShapeCasts ⟨2, ![1, 1]⟩)
    (u v : Fin 1) : shapeCast ⟨2, ![1, 1]⟩ x h (ix2 u v) = x ix0 :=
  congrArg x (eq_ix0 _)

/-- A stack `[a, b, c]` cast to the matrix `[m, c]` of its `m = a·b` rows reads, at `(r, k)`, matrix `r / b`'s row
    `r mod b` at `k`. -/
theorem shapeCast_abc_mc_apply {a b c m : ℕ} (hm : m = a * b) (hb : 0 < b) (x : (⟨3, ![a, b, c]⟩ : Shape).Idx → α)
    (h : (⟨3, ![a, b, c]⟩ : Shape).ShapeCasts ⟨2, ![m, c]⟩) (r : Fin m) (k : Fin c) :
    shapeCast ⟨2, ![m, c]⟩ x h (ix2 r k)
      = x (ix3 (⟨r.val / b, by
            have := r.isLt; subst hm
            exact Nat.div_lt_of_lt_mul (Nat.lt_of_lt_of_eq this (Nat.mul_comm a b))⟩ : Fin a)
          (⟨r.val % b, Nat.mod_lt _ hb⟩ : Fin b) k) :=
  shapeCast_apply x h _ _ (by
    rw [Shape.rowMajor_val_three, Shape.rowMajor_val_two]
    show (r.val / b * b + r.val % b) * c + k.val = r.val * c + k.val
    rw [Nat.div_add_mod']
    )

/-- The matrix `[m, c]` of `m = a·b` rows cast to the stack `[a, b, c]` reads, at `(i, j, k)`, row `i·b + j` at `k`. -/
theorem shapeCast_mc_abc_apply {a b c m : ℕ} (hm : m = a * b) (y : (⟨2, ![m, c]⟩ : Shape).Idx → α)
    (h : (⟨2, ![m, c]⟩ : Shape).ShapeCasts ⟨3, ![a, b, c]⟩) (i : Fin a) (j : Fin b) (k : Fin c) :
    shapeCast ⟨3, ![a, b, c]⟩ y h (ix3 i j k)
      = y (ix2 (⟨i.val * b + j.val, by
            have hi := i.isLt; have hj := j.isLt; subst hm
            calc i.val * b + j.val < i.val * b + b := Nat.add_lt_add_left hj _
              _ = (i.val + 1) * b := by rw [Nat.add_mul, Nat.one_mul]
              _ ≤ a * b := Nat.mul_le_mul_right _ hi⟩ : Fin m) k) :=
  shapeCast_apply y h _ _ (by
    rw [Shape.rowMajor_val_three, Shape.rowMajor_val_two]
    show (i.val * b + j.val) * c + k.val = (i.val * b + j.val) * c + k.val
    rfl)

end Cert.RowLayout

end
-- ==== Proof.HostSide.lean ====
/-
  The four arrays the kernel region finds, as functions of the program's arguments, read at an element.

  Before the region the program flattens the activations `[2, 4096, 2048]` to the matrix `[8192, 2048]` of their rows,
  views the gain `[2048]` as one row `[1, 2048]`, computes the ternary weights and transposes them (and narrows them to
  bf16, the identity on exact values), and views the absmean scale as a `[1, 1]` matrix. So

    * row `r` of the flattened activations is row `r mod 4096` of matrix `r / 4096`;
    * the gain row at `k` is the gain at `k`;
    * the transposed weights at `(k, o)` are the ternary weights at `(o, k)`;
    * the scale matrix's one element is the scale.
-/
import proofs.«104002_j34291018892051_1_alg».proof.Proof.Gen.KernelIdeal.Frame
import proofs.«104002_j34291018892051_1_alg».proof.Proof.Quant
import proofs.«104002_j34291018892051_1_alg».proof.Proof.LibRowLayout
import Idealize.ShloMosaic.Lib.StableHlo.Run
import Idealize.ShloMosaic.Lib.ValueIdx
import Idealize.ShloMosaic.Lib.ValueLayout

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.RowLayout

variable (m : (ℓ : Loc nD τ sig) → Buf (Elt Ideal) ℓ)

/-- The three arguments on core `c`: activations, weights, gain. -/
abbrev acts (c : Dev nD) : S2x4096x2048.Idx → EReal := m ((c : Thread nD τ).loc main_arg0)
abbrev wts (c : Dev nD) : S2048x2048.Idx → EReal := m ((c : Thread nD τ).loc main_arg1)
abbrev gain (c : Dev nD) : S2048.Idx → EReal := m ((c : Thread nD τ).loc main_arg2)

/-- The flattened activations are the activations viewed as the matrix of their rows. -/
theorem flatActs_eq (c : Dev nD) : (V m c main_v12 : S8192x2048.Idx → EReal)
    = shapeCast S8192x2048 (acts m c) Gen.shapeCasts_S2x4096x2048_S8192x2048 := by
  dsimp only [V, V0]
  simp only [hostOps0, hostOps0_1, hostOps0_2, hostOps0_3, hostOps0_4, List.flatten_cons, List.flatten_nil,
    List.append_nil, List.cons_append, List.nil_append]
  after_results
  rfl

/-- The gain row is the gain viewed as a one-row matrix. -/
theorem gainRow_eq (c : Dev nD) : (V m c main_v11 : S1x2048.Idx → EReal)
    = shapeCast S1x2048 (gain m c) Gen.shapeCasts_S2048_S1x2048 := by
  dsimp only [V, V0]
  simp only [hostOps0, hostOps0_1, hostOps0_2, hostOps0_3, hostOps0_4, List.flatten_cons, List.flatten_nil,
    List.append_nil, List.cons_append, List.nil_append]
  after_results
  rfl

/-- The transposed weights are the ternary weights, transposed and narrowed. -/
theorem wtsT_eq (c : Dev nD) : (V m c main_v9 : S2048x2048.Idx → EReal)
    = truncf .bf16 (transpose S2048x2048 [1, 0] (BitLinear.ternary (wts m c)) Gen.transposes_S2048x2048_S2048x2048_1_0)
        Gen.bitsLt_bf16_f32 := by
  dsimp only [V, V0]
  simp only [hostOps0, hostOps0_1, hostOps0_2, hostOps0_3, hostOps0_4, List.flatten_cons, List.flatten_nil,
    List.append_nil, List.cons_append, List.nil_append]
  after_results
  rfl

/-- The scale matrix is the absmean scale viewed as a `[1, 1]` matrix. -/
theorem scale11_eq (c : Dev nD) : (V m c main_v10 : S1x1.Idx → EReal)
    = shapeCast S1x1 (BitLinear.scale (wts m c)) Gen.shapeCasts_S_S1x1 := by
  dsimp only [V, V0]
  simp only [hostOps0, hostOps0_1, hostOps0_2, hostOps0_3, hostOps0_4, List.flatten_cons, List.flatten_nil,
    List.append_nil, List.cons_append, List.nil_append]
  after_results
  rfl

/-! ## Read at an element -/

theorem flatActs_apply (c : Dev nD) (r : Fin 8192) (k : Fin 2048) :
    (V m c main_v12 : S8192x2048.Idx → EReal) (ix2 r k)
      = acts m c (ix3 (⟨r.val / 4096, by have := r.isLt; omega⟩ : Fin 2) (⟨r.val % 4096, Nat.mod_lt _ (by decide)⟩ : Fin 4096) k) := by
  rw [flatActs_eq]
  exact shapeCast_abc_mc_apply (by rfl : 8192 = 2 * 4096) (by decide) _ _ r k

theorem gainRow_apply (c : Dev nD) (k : Fin 2048) :
    (V m c main_v11 : S1x2048.Idx → EReal) (ix2 (0 : Fin 1) k) = gain m c (ix1 k) := by
  rw [gainRow_eq]
  exact shapeCast_a_1a_apply _ _ 0 k

theorem wtsT_apply (c : Dev nD) (k o : Fin 2048) :
    (V m c main_v9 : S2048x2048.Idx → EReal) (ix2 k o) = BitLinear.ternary (wts m c) (ix2 o k) := by
  rw [wtsT_eq]
  show transpose S2048x2048 [1, 0] (BitLinear.ternary (wts m c)) Gen.transposes_S2048x2048_S2048x2048_1_0 (ix2 k o) = _
  exact transpose_ix2_apply _ _ k o

theorem scale11_apply (c : Dev nD) :
    (V m c main_v10 : S1x1.Idx → EReal) (ix2 (0 : Fin 1) (0 : Fin 1)) = BitLinear.scale (wts m c) ix0 := by
  rw [scale11_eq]
  exact shapeCast_scalar_11_apply _ _ 0 0

end Cert.KernelIdeal.HostSide

end
-- ==== Proof.RowNorm.lean ====
/-
  One output element of a BitLinear layer over the extended reals.

  A row `x` of 2048 activations is divided by its root mean square `√(Σ x² / 2048 + ε)`, scaled entry by entry by a
  gain `g`, contracted with one row `w` of the ternary weight matrix, and multiplied by the weights' absmean scale `γ`:

      out x g w γ = (Σ_k (x_k / rms x) · g_k · w_k) · γ.

  The divisor `2048` and `ε` are kept as the float words both programs carry (`0x45000000`, `0x358637BD`): the same word
  on both sides is never evaluated. Nothing here needs finiteness: both programs compute this very expression, with
  the same grouping of every product, and differ only in how the arrays are laid out around it.
-/
import Idealize.ShloMosaic.PureOps.Ideal

noncomputable section

open scoped BigOperators

namespace Cert.BitLinear

open Idealize.ShloMosaic

/-- The root mean square of a row, with the stabiliser `ε` under the root. -/
def rms (x : Fin 2048 → EReal) : EReal :=
  Ideal.sqrt (Ideal.div (∑ k, x k * x k) (Ideal.ofBits .f32 0x45000000#32) + Ideal.ofBits .f32 0x358637BD#32)

/-- Entry `k` of the normalised row, scaled by the gain. -/
def normed (x g : Fin 2048 → EReal) (k : Fin 2048) : EReal :=
  Ideal.div (x k) (rms x) * g k

/-- The normalised row contracted with a weight row, times the weights' scale. -/
def out (x g w : Fin 2048 → EReal) (γ : EReal) : EReal :=
  (∑ k, normed x g k * w k) * γ

end Cert.BitLinear

end
-- ==== Proof.Payload.lean ====
/-
  What the kernel body stores, read at one element.

  The body loads a block `X` of 512 rows of activations, the gain row `g`, the whole transposed weight matrix `Wt`
  and the scale `γ`, and stores ONE value over its whole output block. At element `(p, q)` of the block that value is

      (Σ_k (X[p,k] / rms X[p,·]) · g[0,k] · Wt[k,q]) · γ[0,0],

  which is `BitLinear.out` of row `p` of `X`, the gain row, column `q` of `Wt` and `γ`. The steps: the row sum of
  squares is a sum over the row's 2048 coordinates; the keepdims column `[512] → [512,1] → [512,2048]` reads row `p`'s
  entry; the gain's row broadcast reads column `k`; the narrowing to bf16 is the identity on exact values; the matrix
  product into a zero accumulator is the plain sum over the contracted coordinate.
-/
import proofs.«104002_j34291018892051_1_alg».proof.Proof.Gen.KernelIdeal.Skeleton
import proofs.«104002_j34291018892051_1_alg».proof.Proof.RowNorm
import proofs.«104002_j34291018892051_1_alg».proof.Proof.LibRowLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.RowLayout

/-- A square root at an index is the root of the element. -/
theorem sqrt_apply {s : Shape} {φ : FTy} (x : FVec Ideal s φ) (i : s.Idx) : sqrt x i = Ideal.sqrt (x i) := rfl

/-- A sum along the rows of a `[512, 2048]` block, read at row `p`: the sum of the row's 2048 entries. -/
theorem rowSum_apply (y : FVec Ideal S512x2048 .f32) (h : S512x2048.Reduces [1] S512) (hφ : FKind.Formats .f32)
    (hacc : (0x00000000#32 : BitVec 32) = 0x00000000#32) (p : Fin 512) :
    multiReduction .add [1] S512 y 0x00000000#32 h hφ hacc (ix1 p) = ∑ k : Fin 2048, y (ix2 p k) := by
  refine (Ideal.multiReduction_add_single y 0x00000000#32 h hφ hacc (ix1 p)).trans ?_
  refine Finset.sum_congr rfl fun k _ => congrArg y ?_
  exact funext fun a => Fin.ext (by match a with | ⟨0, _⟩ => rfl | ⟨1, _⟩ => rfl)

/-! ## The matrix product at an element -/

theorem lhs_0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem lhs_1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
theorem rhs_0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
theorem rhs_1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- Rows times columns into a zero accumulator: element `(p, q)` is `Σ_k a[p,k] · b[k,q]`. -/
theorem matmul_apply_pq (a : FVec Ideal S512x2048 .bf16) (b : FVec Ideal S2048x2048 .bf16) (p : Fin 512) (q : Fin 2048) :
    matmul dot_S512x2048_S2048x2048_S512x2048_1_0_0_1_n_n none a b (constant S512x2048 .f32 0x00000000#32) (ix2 p q)
      = ∑ k : Fin 2048, a (ix2 p k) * b (ix2 k q) := by
  refine (Ideal.matmul_constant_zero_apply dot_S512x2048_S2048x2048_S512x2048_1_0_0_1_n_n none a b (ix2 p q)).trans ?_
  rw [← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p q) ((contrEquiv1 dot_S512x2048_S2048x2048_S512x2048_1_0_0_1_n_n 2048 rfl rfl).symm k) = ix2 p k := funext fun ax => Fin.ext (by
    match ax with
    | ⟨0, _⟩ => exact lhs_0 _ _
    | ⟨1, _⟩ => exact (lhs_1 _ _).trans hk)
  have er : dot_S512x2048_S2048x2048_S512x2048_1_0_0_1_n_n.rhsIdx (ix2 p q) ((contrEquiv1 dot_S512x2048_S2048x2048_S512x2048_1_0_0_1_n_n 2048 rfl rfl).symm k) = ix2 k q := funext fun ax => Fin.ext (by
    match ax with
    | ⟨0, _⟩ => exact (rhs_0 _ _).trans hk
    | ⟨1, _⟩ => exact rhs_1 _ _)
  rw [el, er]

/-! ## The stored value at an element -/

/-- Element `(p, q)` of what the body stores is `BitLinear.out` of row `p` of the activation block, the gain row,
    column `q` of the transposed weights and the scale. -/
theorem pay_apply (v0 : Vec Ideal S512x2048 .f32) (v12 : Vec Ideal S1x2048 .f32) (v17 : Vec Ideal S2048x2048 .bf16)
    (v20 : Vec Ideal S1x1 .f32) (p : Fin 512) (q : Fin 2048) :
    k0_pay1 (F := Ideal) v0 v12 v17 v20 (ix2 p q)
      = BitLinear.out (fun k => v0 (ix2 p k)) (fun k => v12 (ix2 (0 : Fin 1) k)) (fun k => v17 (ix2 k q))
          (v20 (ix2 (0 : Fin 1) (0 : Fin 1))) := by
  unfold k0_pay1
  simp only [shapeCast_self]
  simp only [mulf_apply, matmul_apply_pq, truncf_apply, divf_apply, addf_apply, sqrt_apply, broadcast_apply,
    broadcastTo_a1_ab_apply, broadcastTo_1b_ab_apply, broadcastTo_11_ab_apply, shapeCast_a_a1_apply]
  unfold BitLinear.out BitLinear.normed BitLinear.rms
  refine congrArg (· * v20 (ix2 (0 : Fin 1) (0 : Fin 1))) (Finset.sum_congr rfl fun k _ => ?_)
  refine congrArg (fun s => Ideal.div (v0 (ix2 p k)) (Ideal.sqrt (Ideal.div s (Ideal.ofBits .f32 0x45000000#32)
    + Ideal.ofBits .f32 0x358637BD#32)) * v12 (ix2 (0 : Fin 1) k) * v17 (ix2 k q)) ?_
  exact rowSum_apply (mulf v0 v0) _ _ _ p

end Cert.KernelIdeal.Payload

end
-- ==== Proof.Blocks.lean ====
/-
  From the blocks the grid's 16 points write back to the kernel's whole output matrix.

  Point `t` reads rows `512·t … 512·t + 511` of the flattened activations and the whole of the gain row, the
  transposed weights and the scale, and writes rows `512·t … 512·t + 511` of the output. Element `(p, q)` of what it
  writes is `BitLinear.out` of row `512·t + p` (`Payload.pay_apply`), so every point's block is a block of ONE
  matrix `flatOut`: row `r`, column `o` is `BitLinear.out` of activation row `(r / 4096, r mod 4096)`, the gain, row
  `o` of the ternary weights and the scale. The 16 blocks tile the 8192 rows (row `r` lies in point `r / 512`'s
  block), so after the run the output array is `flatOut`.
-/
import proofs.«104002_j34291018892051_1_alg».proof.Proof.HostSide
import proofs.«104002_j34291018892051_1_alg».proof.Proof.Payload
import Idealize.ShloMosaic.Lib.Pipeline.Value

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.HostSide Idealize.ShloMosaic.ValueIdx

variable (m : (ℓ : Loc nD τ sig) → Buf (Elt Ideal) ℓ)

theorem hz : (![0, 0] : Fin 2 → Nat) = fun _ => 0 := funext fun a => by fin_cases a <;> rfl

/-- The printed index maps over the grid: the activations' and the output's block index is the point on the row axis,
    every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 16 :=
  Nat.lt_of_lt_of_eq t.isLt (show cfg0.N = 16 from N_0)

/-! ## The input blocks at a point, by their literal types -/

abbrev xblk (c : Dev nD) (t : Fin cfg0.N) : Vec Ideal S512x2048 .f32 := iblk m c 0 t
abbrev gblk (c : Dev nD) (t : Fin cfg0.N) : Vec Ideal S1x2048 .f32 := iblk m c 1 t
abbrev wblk (c : Dev nD) (t : Fin cfg0.N) : Vec Ideal S2048x2048 .bf16 := iblk m c 2 t
abbrev sblk (c : Dev nD) (t : Fin cfg0.N) : Vec Ideal S1x1 .f32 := iblk m c 3 t

/-- The activation block at point `t` is rows `512·t …` of the flattened activations. -/
theorem xblk_apply (c : Dev nD) (t : Fin cfg0.N) (y : S512x2048.Idx) (k : S8192x2048.Idx)
    (hk0 : (k 0).val = 512 * t.val + (y 0).val) (hk1 : (k 1).val = (y 1).val) :
    xblk m c t y = (V m c main_v12 : S8192x2048.Idx → EReal) k := by
  obtain ⟨e0, e1, -⟩ := idx_facts t
  unfold xblk iblk
  rw [View.read_apply]
  show V m c main_v12 _ = V m c main_v12 _
  congr 1
  funext a
  apply Fin.ext
  match a with
  | ⟨0, _⟩ => show win0_0.index t (0 : Fin 2) * 512 + 1 * (y 0).val = (k 0).val; rw [e0, hk0]; omega
  | ⟨1, _⟩ => show win0_0.index t (1 : Fin 2) * 2048 + 1 * (y 1).val = (k 1).val; rw [e1, hk1]; omega

/-- The gain block at every point is the whole gain row. -/
theorem gblk_apply (c : Dev nD) (t : Fin cfg0.N) (y : S1x2048.Idx) :
    gblk m c t y = (V m c main_v11 : S1x2048.Idx → EReal) y := by
  obtain ⟨-, -, e0, e1, -⟩ := idx_facts t
  unfold gblk iblk
  rw [View.read_apply]
  show V m c main_v11 _ = V m c main_v11 _
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 2048 + 1 * (y 1).val = (y 1).val; rw [e1]; omega

/-- The weight block at every point is the whole transposed weight matrix. -/
theorem wblk_apply (c : Dev nD) (t : Fin cfg0.N) (y : S2048x2048.Idx) :
    wblk m c t y = (V m c main_v9 : S2048x2048.Idx → EReal) y := by
  obtain ⟨-, -, -, -, e0, e1, -⟩ := idx_facts t
  unfold wblk iblk
  rw [View.read_apply]
  show V m c main_v9 _ = V m c main_v9 _
  congr 1
  funext a
  apply Fin.ext
  match a with
  | ⟨0, _⟩ => show win0_2.index t (0 : Fin 2) * 2048 + 1 * (y 0).val = (y 0).val; rw [e0]; omega
  | ⟨1, _⟩ => show win0_2.index t (1 : Fin 2) * 2048 + 1 * (y 1).val = (y 1).val; rw [e1]; omega

/-- The scale block at every point is the whole scale matrix. -/
theorem sblk_apply (c : Dev nD) (t : Fin cfg0.N) (y : S1x1.Idx) :
    sblk m c t y = (V m c main_v10 : S1x1.Idx → EReal) y := by
  obtain ⟨-, -, -, -, -, -, e0, e1, -⟩ := idx_facts t
  unfold sblk iblk
  rw [View.read_apply]
  show V m c main_v10 _ = V m c main_v10 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 1 + 1 * (y 1).val = (y 1).val; rw [e1]; omega

/-! ## The output matrix -/

/-- Row `r`, column `o` of the kernel's output matrix. -/
def rowOut (c : Dev nD) (r : Fin 8192) (o : Fin 2048) : EReal :=
  BitLinear.out
    (fun k => acts m c (ix3 (⟨r.val / 4096, by have := r.isLt; omega⟩ : Fin 2) (⟨r.val % 4096, Nat.mod_lt _ (by decide)⟩ : Fin 4096) k))
    (fun k => gain m c (ix1 k)) (fun k => BitLinear.ternary (wts m c) (ix2 o k)) (BitLinear.scale (wts m c) ix0)

/-- The kernel's output matrix. -/
def flatOut (c : Dev nD) : S8192x2048.Idx → EReal :=
  fun i => rowOut m c ⟨(i 0).val, idx2_lt0 i⟩ ⟨(i 1).val, idx2_lt1 i⟩

theorem flatOut_apply (c : Dev nD) (i : S8192x2048.Idx) (r : Fin 8192) (o : Fin 2048) (h0 : (i 0).val = r.val)
    (h1 : (i 1).val = o.val) : flatOut m c i = rowOut m c r o := by
  unfold flatOut
  congr 1 <;> exact Fin.ext ‹_›

/-- Element `(p, q)` of what point `t` writes is row `512·t + p`, column `q` of the output matrix. -/
theorem point_apply (c : Dev nD) (t : Fin cfg0.N) (p : Fin 512) (q : Fin 2048) :
    k0_pay1 (F := Ideal) (xblk m c t) (gblk m c t) (wblk m c t) (sblk m c t) (ix2 p q)
      = rowOut m c ⟨512 * t.val + p.val, by have := point_lt t; have := p.isLt; omega⟩ q := by
  refine (Payload.pay_apply (xblk m c t) (gblk m c t) (wblk m c t) (sblk m c t) p q).trans ?_
  have hx : (fun k : Fin 2048 => xblk m c t (ix2 p k))
      = fun k => acts m c (ix3 (⟨(512 * t.val + p.val) / 4096, by have := point_lt t; have := p.isLt; omega⟩ : Fin 2)
          (⟨(512 * t.val + p.val) % 4096, Nat.mod_lt _ (by decide)⟩ : Fin 4096) k) :=
    funext fun k => (xblk_apply m c t (ix2 p k)
      (ix2 (⟨512 * t.val + p.val, by have := point_lt t; have := p.isLt; omega⟩ : Fin 8192) k) rfl rfl).trans
      (flatActs_apply m c ⟨512 * t.val + p.val, by have := point_lt t; have := p.isLt; omega⟩ k)
  have hg : (fun k : Fin 2048 => gblk m c t (ix2 (0 : Fin 1) k)) = fun k => gain m c (ix1 k) :=
    funext fun k => (gblk_apply m c t (ix2 (0 : Fin 1) k)).trans (gainRow_apply m c k)
  have hw : (fun k : Fin 2048 => wblk m c t (ix2 k q)) = fun k => BitLinear.ternary (wts m c) (ix2 q k) :=
    funext fun k => (wblk_apply m c t (ix2 k q)).trans (wtsT_apply m c k q)
  have hs : sblk m c t (ix2 (0 : Fin 1) (0 : Fin 1)) = BitLinear.scale (wts m c) ix0 :=
    (sblk_apply m c t (ix2 (0 : Fin 1) (0 : Fin 1))).trans (scale11_apply m c)
  rw [hx, hg, hw, hs]
  rfl

/-- WHAT POINT `t` WRITES BACK is block `t` of the output matrix. -/
theorem flushed_eq (c : Dev nD) (t : Fin cfg0.N) :
    (dats m 0 c).flushed 4 t = ((cfg0.win 4).blk t).view.read (Elt Ideal) (flatOut m c) := by
  show (cfg0.win 4).cut (grid0.coords t) ((dats m 0 c).after 4 t) = _
  rw [after0_4]
  unfold out0_4
  rw [View.canon_unit_zero hz]
  simp only [View.ld_unit_zero (S := S512x2048) hz, View.ld_unit_zero (S := S1x2048) hz,
    View.ld_unit_zero (S := S2048x2048) hz, View.ld_unit_zero (S := S1x1) hz]
  obtain ⟨-, -, -, -, -, -, -, -, e8, e9⟩ := idx_facts t
  funext j
  obtain ⟨p, q, rfl⟩ : ∃ (p : Fin 512) (q : Fin 2048), j = ix2 p q :=
    ⟨⟨(j 0).val, (j 0).isLt⟩, ⟨(j 1).val, (j 1).isLt⟩, funext fun a => by match a with | ⟨0, _⟩ => rfl | ⟨1, _⟩ => rfl⟩
  show k0_pay1 (F := Ideal) (xblk m c t) (gblk m c t) (wblk m c t) (sblk m c t) (ix2 p q)
    = flatOut m c (((cfg0.win 4).blk t).view.emb (ix2 p q))
  rw [point_apply]
  refine (flatOut_apply m c _ _ q ?_ ?_).symm
  · show win0_4.index t (0 : Fin 2) * 512 + 1 * p.val = 512 * t.val + p.val
    rw [e8]; omega
  · show win0_4.index t (1 : Fin 2) * 2048 + 1 * q.val = q.val
    rw [e9]; omega

/-! ## The cover and the array after the run -/

/-- An index of the output array is in point `t`'s block iff each coordinate is in the block's range on its axis. -/
theorem mem_blk (t : Fin cfg0.N) (i : S8192x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v13).slice (win0_4.rect t)).set ↔ _
  rw [View.set_slice_whole, Rect.mem_set_unit]
  exact Iff.rfl

/-- Row `r` lies in the block of point `r / 512`, and every point writes back: the blocks cover the array. -/
theorem cover (i : S8192x2048.Idx) :
    ∃ t : Fin cfg0.N, (cfg0.win 4).flush t = true ∧ i ∈ ((cfg0.win 4).blk t).view.set := by
  have hi0 : (i 0).val < 8192 := idx2_lt0 i
  have hi1 : (i 1).val < 2048 := idx2_lt1 i
  obtain ⟨t, ht⟩ : ∃ t : Fin cfg0.N, t.val = (i 0).val / 512 :=
    ⟨⟨(i 0).val / 512, by rw [show cfg0.N = 16 from N_0]; omega⟩, rfl⟩
  obtain ⟨-, -, -, -, -, -, -, -, e8, e9⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    rw [e8, ht]; omega
  | ⟨1, _⟩ =>
    show win0_4.index t (1 : Fin 2) * 2048 ≤ (i 1).val ∧ (i 1).val < win0_4.index t (1 : Fin 2) * 2048 + 2048
    rw [e9]; omega

/-- THE OUTPUT ARRAY AFTER THE RUN is the output matrix. -/
theorem final (c : Dev nD) : (dats m 0 c).arrAt 4 cfg0.N = flatOut m c :=
  (dats m 0 c).arrAt_eq_of_cover 4 (flatOut m c) (fun t _ => flushed_eq m c t) cover

end Cert.KernelIdeal.Blocks

end
-- ==== Proof.Layer.lean ====
/-
  The BitLinear layer on the whole activation stack: output element `(b, s, o)` is `BitLinear.out` of activation row
  `(b, s)`, the gain, row `o` of the ternary weights and the scale.
-/
import proofs.«104002_j34291018892051_1_alg».proof.Proof.RowNorm
import Idealize.ShloMosaic.Lib.ValueIdx

noncomputable section

namespace Cert.BitLinear

open Idealize.ShloMosaic Idealize.ShloMosaic.ValueIdx

/-- The layer's result as one function of the activations `x`, the gain `g`, the ternary weights `w` and the scale `γ`. -/
def layer (x : (⟨3, ![2, 4096, 2048]⟩ : Shape).Idx → EReal) (g : (⟨1, ![2048]⟩ : Shape).Idx → EReal)
    (w : (⟨2, ![2048, 2048]⟩ : Shape).Idx → EReal) (γ : (⟨0, ![]⟩ : Shape).Idx → EReal) :
    (⟨3, ![2, 4096, 2048]⟩ : Shape).Idx → EReal :=
  fun i => out (fun k => x (ix3 (⟨(i 0).val, (i 0).isLt⟩ : Fin 2) (⟨(i 1).val, (i 1).isLt⟩ : Fin 4096) k))
    (fun k => g (ix1 k)) (fun k => w (ix2 (⟨(i 2).val, (i 2).isLt⟩ : Fin 2048) k)) (γ ix0)

/-- At an element given by its coordinates. -/
theorem layer_apply (x : (⟨3, ![2, 4096, 2048]⟩ : Shape).Idx → EReal) (g : (⟨1, ![2048]⟩ : Shape).Idx → EReal)
    (w : (⟨2, ![2048, 2048]⟩ : Shape).Idx → EReal) (γ : (⟨0, ![]⟩ : Shape).Idx → EReal) (b : Fin 2) (s : Fin 4096) (o : Fin 2048) :
    layer x g w γ (ix3 b s o)
      = out (fun k => x (ix3 b s k)) (fun k => g (ix1 k)) (fun k => w (ix2 o k)) (γ ix0) := rfl

end Cert.BitLinear

end
-- ==== Proof.KernelRun.lean ====
/-
  The kernel program's run, with its result read: the program's result is the layer function of its arguments.

  After the region the program views the output matrix `[8192, 2048]` as the stack `[2, 4096, 2048]`: element
  `(b, s, o)` is row `4096·b + s`, column `o` of the matrix, and that row is activation row `(b, s)`'s. So the
  result is `BitLinear.layer` of the activations, the gain, the ternary weights and the scale.
-/
import proofs.«104002_j34291018892051_1_alg».proof.Proof.Blocks
import proofs.«104002_j34291018892051_1_alg».proof.Proof.Layer
import Idealize.ShloMosaic.Lib.StableHlo.Run

noncomputable section

open Idealize.ShloMosaic Idealize.ShloMosaic.TcCoe Idealize.SL.Sem

namespace Cert.KernelIdeal.KernelRun

open Cert.KernelIdeal Cert.KernelIdeal.Gen Cert.KernelIdeal.HostSide Cert.KernelIdeal.Blocks
open Idealize.ShloMosaic.StableHlo Idealize.ShloMosaic.ValueIdx Cert.RowLayout

variable (m : (ℓ : Loc nD τ sig) → Buf (Elt Ideal) ℓ) (ρ : Dev nD → PrngReg)

/-- The layer function of core `c`'s arguments. -/
abbrev layerOut (c : Dev nD) : S2x4096x2048.Idx → EReal :=
  BitLinear.layer (acts m c) (gain m c) (BitLinear.ternary (wts m c)) (BitLinear.scale (wts m c))

/-- Row `4096·b + s` of the output matrix is activation row `(b, s)`'s. -/
theorem rowOut_stack (c : Dev nD) (b : Fin 2) (s : Fin 4096) (o : Fin 2048) (r : Fin 8192) (hr : r.val = b.val * 4096 + s.val) :
    rowOut m c r o = BitLinear.out (fun k => acts m c (ix3 b s k)) (fun k => gain m c (ix1 k))
      (fun k => BitLinear.ternary (wts m c) (ix2 o k)) (BitLinear.scale (wts m c) ix0) := by
  have hb : (⟨r.val / 4096, by have := r.isLt; omega⟩ : Fin 2) = b :=
    Fin.ext (by show r.val / 4096 = b.val; have := s.isLt; omega)
  have hs : (⟨r.val % 4096, Nat.mod_lt _ (by decide)⟩ : Fin 4096) = s :=
    Fin.ext (by show r.val % 4096 = s.val; have := s.isLt; omega)
  unfold rowOut
  rw [hb, hs]

/-- The output matrix viewed as a stack is the layer function. -/
theorem stack_eq (c : Dev nD) :
    shapeCast S2x4096x2048 (flatOut m c) Gen.shapeCasts_S8192x2048_S2x4096x2048 = layerOut m c := by
  funext i
  obtain ⟨b, s, o, rfl⟩ : ∃ (b : Fin 2) (s : Fin 4096) (o : Fin 2048), i = ix3 b s o := ⟨i 0, i 1, i 2, eq_ix3 i⟩
  show _ = BitLinear.out (fun k => acts m c (ix3 b s k)) (fun k => gain m c (ix1 k))
    (fun k => BitLinear.ternary (wts m c) (ix2 o k)) (BitLinear.scale (wts m c) ix0)
  refine (shapeCast_mc_abc_apply (by rfl : 8192 = 2 * 4096) (flatOut m c) _ b s o).trans ?_
  refine (flatOut_apply m c _ _ o rfl rfl).trans ?_
  exact rowOut_stack m c b s o _ rfl

/-- THE PROGRAM'S RESULT, as the lines after the region leave it, is the layer function. -/
theorem result_eq (c : Dev nD) :
    (Pipeline.afterTail₀ cfgs (dats m) 0 (V0 m) [hostOps1] c main_v14 : S2x4096x2048.Idx → EReal) = layerOut m c := by
  unfold Pipeline.afterTail₀
  show StableHlo.after hostOps1 _ (Proc.devRef .tc main_v14) = _
  after_results
  have hw : (Pipeline.withArrays (cfgs 0).spec c (V0 m c) (fun w => (dats m 0 c).arrAt w (cfgs 0).N)
      (Proc.devRef .tc main_v13) : S8192x2048.Idx → EReal) = flatOut m c :=
    (Pipeline.withArrays_arr spec0 launch0.win.arr_inj c _ _ 4).trans (Blocks.final m c)
  show shapeCast S2x4096x2048 (Pipeline.withArrays (cfgs 0).spec c (V0 m c) (fun w => (dats m 0 c).arrAt w (cfgs 0).N)
      (Proc.devRef .tc main_v13)) Gen.shapeCasts_S8192x2048_S2x4096x2048 = _
  rw [hw]
  exact stack_eq m c

/-- The run, read: the result at the layer function of the arguments, the arguments unchanged. -/
theorem run : θ_run defs (onTc (τ := τ) (main (F := Ideal))) ⟨m, fun _ => 0, ρ⟩ fun r => ∀ c : Dev nD,
      r.2.mem ((c.tc : Thread nD τ).loc main_v14) = layerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.RefValue.lean ====
/-
  The reference's result is the layer function.

  The reference normalises every activation row `(b, s)` by its root mean square, scales by the gain, contracts with
  the ternary weights along the feature axis (`Σ_k xn[b,s,k] · wq[o,k]`) and multiplies by the absmean scale. Read at
  `(b, s, o)`, stage by stage, that is `BitLinear.out` of row `(b, s)`, the gain, row `o` of the ternary weights and
  the scale. The host's row sum starts from the zero word, which adds nothing; the host's division and square root
  are the exact ones. The ternary weights and the scale are the shared functions of the weight matrix, never opened.
-/
import proofs.«104002_j34291018892051_1_alg».proof.Proof.Gen.ReferenceIdeal.Read
import proofs.«104002_j34291018892051_1_alg».proof.Proof.Layer
import proofs.«104002_j34291018892051_1_alg».proof.Proof.Quant
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's clipped, rounded weights are the shared ternary weights … -/
theorem ternary_eq (x1 : (⟨S2048x2048, .f32⟩ : BufTy).Contents (Elt Ideal)) :
    val_main_v20 (F := Ideal) x1 = BitLinear.ternary x1 := rfl

/-- … and its absmean scale is the shared scale. -/
theorem scale_eq (x1 : (⟨S2048x2048, .f32⟩ : BufTy).Contents (Elt Ideal)) :
    val_main_v15 (F := Ideal) x1 = BitLinear.scale x1 := rfl

/-- The normalised, gain-scaled activations at `(b, s, k)`: entry `k` of row `(b, s)` over the row's root mean square,
    times the gain at `k`. -/
theorem normed_apply (x0 : (⟨S2x4096x2048, .f32⟩ : BufTy).Contents (Elt Ideal)) (x2 : (⟨S2048, .f32⟩ : BufTy).Contents (Elt Ideal))
    (b : Fin 2) (s : Fin 4096) (k : Fin 2048) :
    val_main_v12 (F := Ideal) x0 x2 (ix3 b s k)
      = BitLinear.normed (fun k => x0 (ix3 b s k)) (fun k => x2 (ix1 k)) k := by
  have e1 : ∀ k' : Fin 2048, idx_main_v1 (idx_main_v2 (idx_main_v8 (ix3 b s k))) k' = ix3 b s k' := fun k' =>
    funext fun a => by match a with | ⟨0, _⟩ => rfl | ⟨1, _⟩ => rfl | ⟨2, _⟩ => rfl
  have e2 : idx_main_v10 (idx_main_v11 (ix3 b s k)) = ix1 k :=
    funext fun a => by match a with | ⟨0, _⟩ => rfl
  simp only [val_main_v12_apply, val_main_v9_apply, val_main_v8_apply, val_main_v7_apply, val_main_v6_apply,
    val_main_v4_apply, val_main_v2_apply, val_main_v1_apply, val_main_v0_apply, val_main_v3_apply, val_main_cst_0_apply,
    val_main_v5_apply, val_main_cst_1_apply, val_main_cst_apply, val_main_v11_apply, val_main_v10_apply, e1, e2]
  unfold BitLinear.normed BitLinear.rms
  simp only [Ideal.mulf_def, Ideal.addf_def, Ideal.hostDivf_def, Ideal.hostUnary_sqrt_def, Ideal.ofBits_def,
    Ideal.ofBits_zero_f32, zero_add]

/-- THE REFERENCE'S RESULT is the layer function of its arguments. -/
theorem result_eq (x0 : (⟨S2x4096x2048, .f32⟩ : BufTy).Contents (Elt Ideal)) (x1 : (⟨S2048x2048, .f32⟩ : BufTy).Contents (Elt Ideal))
    (x2 : (⟨S2048, .f32⟩ : BufTy).Contents (Elt Ideal)) :
    val_main_v23 (F := Ideal) x0 x1 x2 = BitLinear.layer x0 x2 (BitLinear.ternary x1) (BitLinear.scale x1) := by
  funext i
  obtain ⟨b, s, o, rfl⟩ : ∃ (b : Fin 2) (s : Fin 4096) (o : Fin 2048), i = ix3 b s o := ⟨i 0, i 1, i 2, eq_ix3 i⟩
  have el : ∀ k : Fin 2048, lidx_main_v21 (ix3 b s o) k = ix3 b s k := fun k =>
    funext fun a => by match a with | ⟨0, _⟩ => rfl | ⟨1, _⟩ => rfl | ⟨2, _⟩ => rfl
  have er : ∀ k : Fin 2048, ridx_main_v21 (ix3 b s o) k = ix2 o k := fun k =>
    funext fun a => by match a with | ⟨0, _⟩ => rfl | ⟨1, _⟩ => rfl
  rw [BitLinear.layer_apply, val_main_v23_apply, val_main_v21_apply, val_main_v22_apply]
  unfold BitLinear.out
  simp only [el, er, normed_apply, ternary_eq, scale_eq]
  rfl

end Cert.ReferenceIdeal.RefValue

end
-- ==== Proof.lean ====
/-
  BitLinear: root-mean-square-normalised activations against ternary weights, scaled by the weights' absmean.

  Both programs compute, for activations `x : [2, 4096, 2048]`, weights `w : [2048, 2048]` and a gain `g : [2048]`,

      y[b, s, o] = (Σ_k (x[b,s,k] / √(Σ_j x[b,s,j]² / 2048 + ε)) · g[k] · wq[o,k]) · γ,
      γ = Σ |w| / 2²²,   wq = clip(round(w / (γ + 10⁻⁸)), −1, 1).

  The reference does so on the whole stack with one contraction over the feature axis. The kernel flattens the stack
  to 8192 rows, hands 512 rows at a time to a body that normalises them, narrows them to bf16 (the identity on exact
  values) and multiplies them with the TRANSPOSED ternary weights into a zero accumulator, and views the 8192 output
  rows as the stack again. Over the extended reals the two are the same expression element by element: the same
  products in the same grouping, the contraction a sum over the same 2048 coordinates; the weights' side (`γ`, `wq`) is
  the same chain of host operations in both and is carried as two functions that are never opened. No law is used
  that needs the inputs finite.

  `Proof/RowNorm`, `Proof/Layer`, `Proof/Quant` state the function; `Proof/Payload` reads the body's one store at an
  element; `Proof/HostSide` reads the arrays the region finds; `Proof/Blocks` goes from the sixteen written blocks to
  the output matrix; `Proof/KernelRun` reads the program's result; `Proof/RefValue` reads the reference's.
-/
import proofs.«104002_j34291018892051_1_alg».proof.Defs
import proofs.«104002_j34291018892051_1_alg».proof.Proof.Gen.Kernel
import proofs.«104002_j34291018892051_1_alg».proof.Proof.Gen.Kernel.Skeleton
import proofs.«104002_j34291018892051_1_alg».proof.Proof.Gen.Kernel.Launch
import proofs.«104002_j34291018892051_1_alg».proof.Proof.Gen.Kernel.Points
import proofs.«104002_j34291018892051_1_alg».proof.Proof.Gen.Kernel.Frame
import proofs.«104002_j34291018892051_1_alg».proof.Proof.Gen.KernelIdeal
import proofs.«104002_j34291018892051_1_alg».proof.Proof.Gen.KernelIdeal.Skeleton
import proofs.«104002_j34291018892051_1_alg».proof.Proof.Gen.KernelIdeal.Launch
import proofs.«104002_j34291018892051_1_alg».proof.Proof.Gen.KernelIdeal.Points
import proofs.«104002_j34291018892051_1_alg».proof.Proof.Gen.KernelIdeal.Frame
import proofs.«104002_j34291018892051_1_alg».proof.Proof.Gen.ReferenceIdeal
import proofs.«104002_j34291018892051_1_alg».proof.Proof.Gen.ReferenceIdeal.Run
import proofs.«104002_j34291018892051_1_alg».proof.Proof.Gen.ReferenceIdeal.Read
import proofs.«104002_j34291018892051_1_alg».proof.Proof.Gen.Pre_finite_inputs
import proofs.«104002_j34291018892051_1_alg».proof.Proof.KernelRun
import proofs.«104002_j34291018892051_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel program's result and the reference's are both the layer function of the
    arguments: equal element by element. -/
theorem algebraic : Cert.algebraic_KernelIdeal_ReferenceIdeal := by
  intro m ρ m' ρ' _ hagree
  refine ⟨fun c => Cert.KernelIdeal.KernelRun.layerOut m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq _ _ _).trans ((Cert.ReferenceIdeal.RefValue.result_eq _ _ _).trans ?_)
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
